-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x64x64 : Shape := ⟨4, ![64, 64, 64, 64]⟩
abbrev S4x64x1x1 : Shape := ⟨4, ![4, 64, 1, 1]⟩
abbrev S4 : Shape := ⟨1, ![4]⟩
abbrev S64x4x1x1 : Shape := ⟨4, ![64, 4, 1, 1]⟩
abbrev S64 : Shape := ⟨1, ![64]⟩
abbrev S_ : Shape := ⟨0, ![]⟩

class Facts : Prop where
  bcast_S_S64x64x64x64 : S_.BroadcastsInDim S64x64x64x64 (![] : Fin 0 → Fin S64x64x64x64.rank)
  reducesTo_S64x64x64x64_S_d0_1_2_3 : S64x64x64x64.ReducesTo [0, 1, 2, 3] S_
  h_S_ : 0 < S_.numel
  bcast_S_S4x64x1x1 : S_.BroadcastsInDim S4x64x1x1 (![] : Fin 0 → Fin S4x64x1x1.rank)
  reducesTo_S4x64x1x1_S_d0_1_2_3 : S4x64x1x1.ReducesTo [0, 1, 2, 3] S_
  bcast_S_S4 : S_.BroadcastsInDim S4 (![] : Fin 0 → Fin S4.rank)
  reducesTo_S4_S_d0 : S4.ReducesTo [0] S_
  bcast_S_S64x4x1x1 : S_.BroadcastsInDim S64x4x1x1 (![] : Fin 0 → Fin S64x4x1x1.rank)
  reducesTo_S64x4x1x1_S_d0_1_2_3 : S64x4x1x1.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x4x1x1 1) : IVec S_ 1 :=
  let main_c_5 : IVec S_ 1 := constantI S_ 1 1#1
  let main_v17 : IVec S_ 1 := (fun x v => Host.reduce IntOp.andi x v reducesTo_S64x4x1x1_S_d0_1_2_3 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S64x64x64x64 .f32) (main_arg1 : FVec F S4x64x1x1 .f32) (main_arg2 : FVec F S4 .f32) (main_arg3 : FVec F S64x4x1x1 .f32) (main_arg4 : FVec F S64 .f32) : IVec S_ 1 :=
  let main_v0 : FVec F S64x64x64x64 .f32 := Host.absf main_arg0
  let main_cst : FVec F S_ .f32 := constant S_ .f32 0x7F800000#32
  let main_v1 : FVec F S64x64x64x64 .f32 := broadcastInDim S64x64x64x64 ![] bcast_S_S64x64x64x64 main_cst
  let main_v2 : IVec S64x64x64x64 1 := cmpf .olt main_v0 main_v1
  let main_c : IVec S_ 1 := constantI S_ 1 1#1
  let main_v3 : IVec S_ 1 := (fun x v => Host.reduce IntOp.andi x v reducesTo_S64x64x64x64_S_d0_1_2_3 h_S_) main_v2 main_c
  let main_v4 : FVec F S4x64x1x1 .f32 := Host.absf main_arg1
  let main_cst_0 : FVec F S_ .f32 := constant S_ .f32 0x7F800000#32
  let main_v5 : FVec F S4x64x1x1 .f32 := broadcastInDim S4x64x1x1 ![] bcast_S_S4x64x1x1 main_cst_0
  let main_v6 : IVec S4x64x1x1 1 := cmpf .olt main_v4 main_v5
  let main_c_1 : IVec S_ 1 := constantI S_ 1 1#1
  let main_v7 : IVec S_ 1 := (fun x v => Host.reduce IntOp.andi x v reducesTo_S4x64x1x1_S_d0_1_2_3 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S64x4x1x1 .f32 := Host.absf main_arg3
  let main_cst_4 : FVec F S_ .f32 := constant S_ .f32 0x7F800000#32
  let main_v15 : FVec F S64x4x1x1 .f32 := broadcastInDim S64x4x1x1 ![] bcast_S_S64x4x1x1 main_cst_4
  let main_v16 : IVec S64x4x1x1 1 := cmpf .olt main_v14 main_v15
  fn_part1 (F := F) main_arg4 main_v13 main_v16
-- ==== Kernel.lean ====
abbrev S64x64x64x64 : Shape := ⟨4, ![64, 64, 64, 64]⟩
abbrev S4x64x1x1 : Shape := ⟨4, ![4, 64, 1, 1]⟩
abbrev S4 : Shape := ⟨1, ![4]⟩
abbrev S64x4x1x1 : Shape := ⟨4, ![64, 4, 1, 1]⟩
abbrev S64 : Shape := ⟨1, ![64]⟩
abbrev S64x64x4096 : Shape := ⟨3, ![64, 64, 4096]⟩
abbrev S4x64 : Shape := ⟨2, ![4, 64]⟩
abbrev S64x4 : Shape := ⟨2, ![64, 4]⟩
abbrev S1x4 : Shape := ⟨2, ![1, 4]⟩
abbrev S64x1 : Shape := ⟨2, ![64, 1]⟩
abbrev S1x64x4096 : Shape := ⟨3, ![1, 64, 4096]⟩
abbrev S64x4096 : Shape := ⟨2, ![64, 4096]⟩
abbrev S64x128 : Shape := ⟨2, ![64, 128]⟩

abbrev nBuf : Space → Nat
  | .hbm => 13
  | .vmem => 8
  | .smem => 0
  | _ => 0

abbrev bufTy : (tb : Table) → Fin (tcTables nBuf tb) → BufTy
  | .hbm, ⟨0, _⟩ => ⟨S64x64x64x64, .f32⟩
  | .hbm, ⟨1, _⟩ => ⟨S4x64x1x1, .f32⟩
  | .hbm, ⟨2, _⟩ => ⟨S4, .f32⟩
  | .hbm, ⟨3, _⟩ => ⟨S64x4x1x1, .f32⟩
  | .hbm, ⟨4, _⟩ => ⟨S64, .f32⟩
  | .hbm, ⟨5, _⟩ => ⟨S64x64x4096, .f32⟩
  | .hbm, ⟨6, _⟩ => ⟨S4x64, .f32⟩
  | .hbm, ⟨7, _⟩ => ⟨S64x4, .f32⟩
  | .hbm, ⟨8, _⟩ => ⟨S1x4, .f32⟩
  | .hbm, ⟨9, _⟩ => ⟨S64x4, .f32⟩
  | .hbm, ⟨10, _⟩ => ⟨S64x1, .f32⟩
  | .hbm, ⟨11, _⟩ => ⟨S64x64x4096, .f32⟩
  | .hbm, ⟨12, _⟩ => ⟨S64x64x64x64, .f32⟩
  | .local _ .vmem, ⟨0, _⟩ => ⟨S1x64x4096, .f32⟩
  | .local _ .vmem, ⟨1, _⟩ => ⟨S1x64x4096, .f32⟩
  | .local _ .vmem, ⟨2, _⟩ => ⟨S64x4, .f32⟩
  | .local _ .vmem, ⟨3, _⟩ => ⟨S1x4, .f32⟩
  | .local _ .vmem, ⟨4, _⟩ => ⟨S64x4, .f32⟩
  | .local _ .vmem, ⟨5, _⟩ => ⟨S64x1, .f32⟩
  | .local _ .vmem, ⟨6, _⟩ => ⟨S1x64x4096, .f32⟩
  | .local _ .vmem, ⟨7, _⟩ => ⟨S1x64x4096, .f32⟩
  | _, _ => ⟨S64x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x64x64x64_S64x64x4096 : S64x64x64x64.ShapeCasts S64x64x4096
  shapeCasts_S4x64x1x1_S4x64 : S4x64x1x1.ShapeCasts S4x64
  transposes_S4x64_S64x4_1_0 : S4x64.Transposes [1, 0] S64x4
  shapeCasts_S4_S1x4 : S4.ShapeCasts S1x4
  shapeCasts_S64x4x1x1_S64x4 : S64x4x1x1.ShapeCasts S64x4
  shapeCasts_S64_S64x1 : S64.ShapeCasts S64x1
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  slices_S64x4096_o0_0_S64x128 : S64x4096.Slices ![0, 0] S64x128
  slices_S64x4096_o0_128_S64x128 : S64x4096.Slices ![0, 128] S64x128
  slices_S64x4096_o0_256_S64x128 : S64x4096.Slices ![0, 256] S64x128
  slices_S64x4096_o0_384_S64x128 : S64x4096.Slices ![0, 384] S64x128
  slices_S64x4096_o0_512_S64x128 : S64x4096.Slices ![0, 512] S64x128
  slices_S64x4096_o0_640_S64x128 : S64x4096.Slices ![0, 640] S64x128
  slices_S64x4096_o0_768_S64x128 : S64x4096.Slices ![0, 768] S64x128
  slices_S64x4096_o0_896_S64x128 : S64x4096.Slices ![0, 896] S64x128
  slices_S64x4096_o0_1024_S64x128 : S64x4096.Slices ![0, 1024] S64x128
  slices_S64x4096_o0_1152_S64x128 : S64x4096.Slices ![0, 1152] S64x128
  slices_S64x4096_o0_1280_S64x128 : S64x4096.Slices ![0, 1280] S64x128
  slices_S64x4096_o0_1408_S64x128 : S64x4096.Slices ![0, 1408] S64x128
  slices_S64x4096_o0_1536_S64x128 : S64x4096.Slices ![0, 1536] S64x128
  slices_S64x4096_o0_1664_S64x128 : S64x4096.Slices ![0, 1664] S64x128
  slices_S64x4096_o0_1792_S64x128 : S64x4096.Slices ![0, 1792] S64x128
  slices_S64x4096_o0_1920_S64x128 : S64x4096.Slices ![0, 1920] S64x128
  slices_S64x4096_o0_2048_S64x128 : S64x4096.Slices ![0, 2048] S64x128
  slices_S64x4096_o0_2176_S64x128 : S64x4096.Slices ![0, 2176] S64x128
  slices_S64x4096_o0_2304_S64x128 : S64x4096.Slices ![0, 2304] S64x128
  slices_S64x4096_o0_2432_S64x128 : S64x4096.Slices ![0, 2432] S64x128
  slices_S64x4096_o0_2560_S64x128 : S64x4096.Slices ![0, 2560] S64x128
  slices_S64x4096_o0_2688_S64x128 : S64x4096.Slices ![0, 2688] S64x128
  slices_S64x4096_o0_2816_S64x128 : S64x4096.Slices ![0, 2816] S64x128
  slices_S64x4096_o0_2944_S64x128 : S64x4096.Slices ![0, 2944] S64x128
  slices_S64x4096_o0_3072_S64x128 : S64x4096.Slices ![0, 3072] S64x128
  slices_S64x4096_o0_3200_S64x128 : S64x4096.Slices ![0, 3200] S64x128
  slices_S64x4096_o0_3328_S64x128 : S64x4096.Slices ![0, 3328] S64x128
  slices_S64x4096_o0_3456_S64x128 : S64x4096.Slices ![0, 3456] S64x128
  slices_S64x4096_o0_3584_S64x128 : S64x4096.Slices ![0, 3584] S64x128
  slices_S64x4096_o0_3712_S64x128 : S64x4096.Slices ![0, 3712] S64x128
  slices_S64x4096_o0_3840_S64x128 : S64x4096.Slices ![0, 3840] S64x128
  slices_S64x4096_o0_3968_S64x128 : S64x4096.Slices ![0, 3968] S64x128
  reduces_S64x128_S64 : S64x128.Reduces [1] S64
  inb_S64x4_S64x4_0_0 : ∀ a, (![0, 0] : Fin 2 → Nat) a + S64x4.size a ≤ S64x4.size a
  h_S64x4 : 0 < S64x4.numel
  shapeCasts_S64x4_S64x4 : S64x4.ShapeCasts S64x4
  broadcasts_S64x1_S64x4 : S64x1.Broadcasts S64x4
  reduces_S64x4_S4 : S64x4.Reduces [0] S4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S64x4 : S1x4.Broadcasts S64x4
  reduces_S64x4_S64 : S64x4.Reduces [1] S64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  shapeCasts_S64x4096_S1x64x4096 : S64x4096.ShapeCasts S1x64x4096
  shapeCasts_S64x64x4096_S64x64x64x64 : S64x64x4096.ShapeCasts S64x64x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4096.size a ≤ S64x64x4096.size a
  hwx0_0 : ∀ i : grid0.Coords, EltTy.bits .f32 = 32 ∨ (Rect.block (s := S64x64x4096) S1x64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .f32 = 32 ∨ (Rect.block (s := S64x4) S64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4.size a ≤ S64x4.size a
  hwx0_3 : ∀ i : grid0.Coords, EltTy.bits .f32 = 32 ∨ (Rect.block (s := S64x4) S64x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x4096.size a ≤ S64x64x4096.size a
  hwx0_5 : ∀ i : grid0.Coords, EltTy.bits .f32 = 32 ∨ (Rect.block (s := S64x64x4096) S1x64x4096.size (cc0_transform_5 i) (hinb0_5 i)).WholeWords (EltTy.packing .f32)

variable [Facts₀]

abbrev win0_0 : Pipeline.Window sig grid0 :=
  Pipeline.Window.ofSpec (Memref.whole main_v0) S1x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x64x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x64x64x64 : Shape := ⟨4, ![64, 64, 64, 64]⟩
abbrev S4x64x1x1 : Shape := ⟨4, ![4, 64, 1, 1]⟩
abbrev S4 : Shape := ⟨1, ![4]⟩
abbrev S64x4x1x1 : Shape := ⟨4, ![64, 4, 1, 1]⟩
abbrev S64 : Shape := ⟨1, ![64]⟩
abbrev S64x64x4096 : Shape := ⟨3, ![64, 64, 4096]⟩
abbrev S4x64 : Shape := ⟨2, ![4, 64]⟩
abbrev S64x4 : Shape := ⟨2, ![64, 4]⟩
abbrev S1x4 : Shape := ⟨2, ![1, 4]⟩
abbrev S64x1 : Shape := ⟨2, ![64, 1]⟩
abbrev S1x64x4096 : Shape := ⟨3, ![1, 64, 4096]⟩
abbrev S64x4096 : Shape := ⟨2, ![64, 4096]⟩

abbrev nBuf : Space → Nat
  | .hbm => 13
  | .vmem => 8
  | .smem => 0
  | _ => 0

abbrev bufTy : (tb : Table) → Fin (tcTables nBuf tb) → BufTy
  | .hbm, ⟨0, _⟩ => ⟨S64x64x64x64, .f32⟩
  | .hbm, ⟨1, _⟩ => ⟨S4x64x1x1, .f32⟩
  | .hbm, ⟨2, _⟩ => ⟨S4, .f32⟩
  | .hbm, ⟨3, _⟩ => ⟨S64x4x1x1, .f32⟩
  | .hbm, ⟨4, _⟩ => ⟨S64, .f32⟩
  | .hbm, ⟨5, _⟩ => ⟨S64x64x4096, .f32⟩
  | .hbm, ⟨6, _⟩ => ⟨S4x64, .f32⟩
  | .hbm, ⟨7, _⟩ => ⟨S64x4, .f32⟩
  | .hbm, ⟨8, _⟩ => ⟨S1x4, .f32⟩
  | .hbm, ⟨9, _⟩ => ⟨S64x4, .f32⟩
  | .hbm, ⟨10, _⟩ => ⟨S64x1, .f32⟩
  | .hbm, ⟨11, _⟩ => ⟨S64x64x4096, .f32⟩
  | .hbm, ⟨12, _⟩ => ⟨S64x64x64x64, .f32⟩
  | .local _ .vmem, ⟨0, _⟩ => ⟨S1x64x4096, .f32⟩
  | .local _ .vmem, ⟨1, _⟩ => ⟨S1x64x4096, .f32⟩
  | .local _ .vmem, ⟨2, _⟩ => ⟨S64x4, .f32⟩
  | .local _ .vmem, ⟨3, _⟩ => ⟨S1x4, .f32⟩
  | .local _ .vmem, ⟨4, _⟩ => ⟨S64x4, .f32⟩
  | .local _ .vmem, ⟨5, _⟩ => ⟨S64x1, .f32⟩
  | .local _ .vmem, ⟨6, _⟩ => ⟨S1x64x4096, .f32⟩
  | .local _ .vmem, ⟨7, _⟩ => ⟨S1x64x4096, .f32⟩
  | _, _ => ⟨S64x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x64x64x64_S64x64x4096 : S64x64x64x64.ShapeCasts S64x64x4096
  shapeCasts_S4x64x1x1_S4x64 : S4x64x1x1.ShapeCasts S4x64
  transposes_S4x64_S64x4_1_0 : S4x64.Transposes [1, 0] S64x4
  shapeCasts_S4_S1x4 : S4.ShapeCasts S1x4
  shapeCasts_S64x4x1x1_S64x4 : S64x4x1x1.ShapeCasts S64x4
  shapeCasts_S64_S64x1 : S64.ShapeCasts S64x1
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  reduces_S64x4096_S64 : S64x4096.Reduces [1] S64
  broadcasts_S64x1_S64x4096 : S64x1.Broadcasts S64x4096
  inb_S64x4_S64x4_0_0 : ∀ a, (![0, 0] : Fin 2 → Nat) a + S64x4.size a ≤ S64x4.size a
  h_S64x4 : 0 < S64x4.numel
  shapeCasts_S64x4_S64x4 : S64x4.ShapeCasts S64x4
  broadcasts_S64x1_S64x4 : S64x1.Broadcasts S64x4
  reduces_S64x4_S4 : S64x4.Reduces [0] S4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S64x4 : S1x4.Broadcasts S64x4
  reduces_S64x4_S64 : S64x4.Reduces [1] S64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x4096_S1x64x4096 : S64x4096.ShapeCasts S1x64x4096
  shapeCasts_S64x64x4096_S64x64x64x64 : S64x64x4096.ShapeCasts S64x64x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4096.size a ≤ S64x64x4096.size a
  hwx0_0 : ∀ i : grid0.Coords, EltTy.bits .f32 = 32 ∨ (Rect.block (s := S64x64x4096) S1x64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .f32 = 32 ∨ (Rect.block (s := S64x4) S64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4.size a ≤ S64x4.size a
  hwx0_3 : ∀ i : grid0.Coords, EltTy.bits .f32 = 32 ∨ (Rect.block (s := S64x4) S64x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x4096.size a ≤ S64x64x4096.size a
  hwx0_5 : ∀ i : grid0.Coords, EltTy.bits .f32 = 32 ∨ (Rect.block (s := S64x64x4096) S1x64x4096.size (cc0_transform_5 i) (hinb0_5 i)).WholeWords (EltTy.packing .f32)

variable [Facts₀]

abbrev win0_0 : Pipeline.Window sig grid0 :=
  Pipeline.Window.ofSpec (Memref.whole main_v0) S1x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x64x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Moments.lean ====
/-
  Two ways to a row's mean and variance, and why they agree.

  A row of 4096 reals has mean `μ = (∑ f) · κ` with `κ · 4096 = 1`.  The two-pass variance is `(∑ (f - μ)²) · κ`; the
  one-pass form is `(∑ f²) · κ - μ²`, clamped below at zero.  Expanding the square, `∑ (f - μ)² = ∑ f² - 2 μ ∑ f + 4096 μ²`,
  and `κ · 4096 = 1` turns the last two terms into `-μ²`; the two-pass form is a sum of squares times a non-negative
  factor, so the clamp does nothing.  Both are statements about reals: on the extended reals `∞ - ∞` would break the
  expansion, which is why the rows are first shown to be real.

  The one-pass sums are taken lane by lane: position `n = 128 · k + l` of the row is entry `k` of lane `l`, each lane's
  32 entries are added first and the 128 lane totals after.  In a commutative monoid that is the sum over all 4096
  positions, by the bijection `(k, l) ↦ 128 · k + l` between `Fin 32 × Fin 128` and `Fin 4096`.
-/
import Mathlib.Algebra.BigOperators.Fin
import Mathlib.Algebra.BigOperators.Ring.Finset
import Mathlib.Algebra.Order.BigOperators.Ring.Finset
import Mathlib.Logic.Equiv.Fin.Basic
import Mathlib.Data.EReal.Basic
import Mathlib.Data.EReal.Operations
import Mathlib.Tactic.Ring
import Mathlib.Tactic.LinearCombination
import Mathlib.Tactic.Linarith

namespace Cert.Moments

open Finset

/-- A finite sum of reals, each read as an extended real, is the real sum read as an extended real. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The two-pass variance is the one-pass one: `(∑ (f - μ)²) κ = (∑ f²) κ - μ²` for `μ = (∑ f) κ`, when `κ` is the reciprocal
    of the number of terms. -/
theorem twoPass_eq_onePass {N : ℕ} (f : Fin N → ℝ) (κ : ℝ) (hκ : κ * N = 1) :
    (∑ k, (f k - (∑ j, f j) * κ) * (f k - (∑ j, f j) * κ)) * κ
      = (∑ k, f k * f k) * κ - ((∑ j, f j) * κ) * ((∑ j, f j) * κ) := by
  have h1 : ∑ k, (f k - (∑ j, f j) * κ) * (f k - (∑ j, f j) * κ)
      = (∑ k, f k * f k) - 2 * ((∑ j, f j) * κ) * (∑ k, f k) + N * (((∑ j, f j) * κ) * ((∑ j, f j) * κ)) := by
    rw [Finset.sum_congr rfl (fun k _ => (by ring : (f k - (∑ j, f j) * κ) * (f k - (∑ j, f j) * κ)
      = f k * f k - 2 * ((∑ j, f j) * κ) * f k + ((∑ j, f j) * κ) * ((∑ j, f j) * κ)))]
    rw [Finset.sum_add_distrib, Finset.sum_sub_distrib, ← Finset.mul_sum, Finset.sum_const, Finset.card_univ,
      Fintype.card_fin, nsmul_eq_mul]
  rw [h1]
  linear_combination (((∑ j, f j) * κ) * ((∑ j, f j) * κ)) * hκ

/-- The two-pass variance is a sum of squares times a non-negative factor. -/
theorem twoPass_nonneg {N : ℕ} (f : Fin N → ℝ) (κ μ : ℝ) (hκ : 0 ≤ κ) : 0 ≤ (∑ k, (f k - μ) * (f k - μ)) * κ :=
  mul_nonneg (Finset.sum_nonneg fun k _ => mul_self_nonneg _) hκ

/-- So clamping the one-pass variance below at zero gives the two-pass variance. -/
theorem clamp_onePass {N : ℕ} (f : Fin N → ℝ) (κ : ℝ) (hκ : κ * N = 1) (hκ0 : 0 ≤ κ) :
    max ((∑ k, f k * f k) * κ - ((∑ j, f j) * κ) * ((∑ j, f j) * κ)) 0
      = (∑ k, (f k - (∑ j, f j) * κ) * (f k - (∑ j, f j) * κ)) * κ := by
  rw [← twoPass_eq_onePass f κ hκ]
  exact max_eq_left (twoPass_nonneg f κ _ hκ0)

/-- Adding the 32 entries of each of 128 lanes, then the lane totals, adds all 4096 positions: position `128 · k + l` is
    entry `k` of lane `l`. -/
theorem sum_lanes {M : Type*} [AddCommMonoid M] (g : ℕ → M) :
    ∑ l ∈ range 128, ∑ k ∈ range 32, g (128 * k + l) = ∑ n ∈ range 4096, g n := by
  rw [← Fin.sum_univ_eq_sum_range (fun n => g n) 4096, ← Fin.sum_univ_eq_sum_range (fun l => ∑ k ∈ range 32, g (128 * k + l)) 128]
  have e : ∀ l : Fin 128, ∑ k ∈ range 32, g (128 * k + l.val) = ∑ k : Fin 32, g (128 * k.val + l.val) := fun l =>
    (Fin.sum_univ_eq_sum_range (fun k => g (128 * k + l.val)) 32).symm
  rw [Finset.sum_congr rfl (fun l _ => e l), Finset.sum_comm, ← Finset.sum_product']
  rw [show (∑ n : Fin 4096, g n.val) = ∑ n : Fin (32 * 128), g n.val from rfl, ← Equiv.sum_comp finProdFinEquiv]
  refine Finset.sum_congr rfl fun p _ => ?_
  show g (128 * p.1.val + p.2.val) = g (p.2.val + 128 * p.1.val)
  rw [Nat.add_comm]

end Cert.Moments
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Contrast.lean ====
/-
  The contrast statistic, computed two ways, and the gate that follows it.

  For each channel of an image both bodies form `y = sqrt(variance) + mean` over the channel's 4096 positions and then
  run the same gate: a 64 → 4 → 64 bottleneck (relu, then `1 / (1 + exp(-z))`) whose output rescales the image channel
  by channel.  They differ only in `y`.  One body adds the positions lane by lane (32 slices of 128 lanes, then the 128
  lane totals), does the same for the squares, and takes `max(E[x²] - mean², 0)`; the other takes the mean over all 4096
  positions and then the mean of the squared deviations.  `gate` is the common tail; `onePass` and `twoPass` are the two
  statistics; each body's stored block is `gate` of its statistic, by unfolding.

  The lane-by-lane totals are the plain totals in any commutative monoid, so the two means agree on the extended
  reals outright.  The variances agree where the image is real: there `E[(x - μ)²] = E[x²] - μ²` because the scale
  `2⁻¹²` is exactly the reciprocal of the 4096 positions, and the clamp at zero does nothing to a mean of squares.
-/
import proofs.«151526_g2000604311919893_pallasbulk_952_2_alg».proof.Proof.Gen.KernelIdeal.Skeleton
import proofs.«151526_g2000604311919893_pallasbulk_952_2_alg».proof.Proof.Gen.ReferenceIdeal.Skeleton
import proofs.«151526_g2000604311919893_pallasbulk_952_2_alg».proof.Proof.Moments
import proofs.«151526_g2000604311919893_pallasbulk_952_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Contrast

open Idealize.ShloMosaic Idealize.SL.Sem Idealize.ShloMosaic.ValueIdx
open Cert.KernelIdeal Cert.KernelIdeal.Gen

section Bodies
variable {F : FTy → Type} [FloatOps F]

/-- After the statistic `y`: the bottleneck, the sigmoid, and the rescale of the image. -/
def gate (y : FVec F S64x1 .f32) (v169 : Vec F S1x64x4096 .f32) (v142 : Vec F S64x4 .f32) (v148 : Vec F S1x4 .f32)
    (v153 : Vec F S64x4 .f32) (v159 : Vec F S64x1 .f32) : FVec F S1x64x4096 .f32 :=
  have v143 : FVec F S64x4 .f32 := shapeCast S64x4 v142 shapeCasts_S64x4_S64x4
  have v144 : FVec F S64x4 .f32 := broadcastTo S64x4 y broadcasts_S64x1_S64x4
  have v145 : FVec F S64x4 .f32 := mulf v143 v144
  have v146 : FVec F S4 .f32 := multiReduction .add [0] S4 v145 0x00000000#32 reduces_S64x4_S4 (.inl rfl) rfl
  have v147 : FVec F S1x4 .f32 := shapeCast S1x4 v146 shapeCasts_S4_S1x4
  have v149 : FVec F S1x4 .f32 := shapeCast S1x4 v148 shapeCasts_S1x4_S1x4
  have v150 : FVec F S1x4 .f32 := addf v147 v149
  have cst_11 : F .f32 := Scalar.ofBits .f32 0x00000000#32
  have v151 : FVec F S1x4 .f32 := broadcast S1x4 cst_11
  have v152 : FVec F S1x4 .f32 := maximumf v150 v151
  have v154 : FVec F S64x4 .f32 := shapeCast S64x4 v153 shapeCasts_S64x4_S64x4
  have v155 : FVec F S64x4 .f32 := broadcastTo S64x4 v152 broadcasts_S1x4_S64x4
  have v156 : FVec F S64x4 .f32 := mulf v154 v155
  have v157 : FVec F S64 .f32 := multiReduction .add [1] S64 v156 0x00000000#32 reduces_S64x4_S64 (.inl rfl) rfl
  have v158 : FVec F S64x1 .f32 := shapeCast S64x1 v157 shapeCasts_S64_S64x1
  have v160 : FVec F S64x1 .f32 := shapeCast S64x1 v159 shapeCasts_S64x1_S64x1
  have v161 : FVec F S64x1 .f32 := addf v158 v160
  have cst_17 : F .f32 := Scalar.ofBits .f32 0x00000000#32
  have v162 : FVec F S64x1 .f32 := broadcast S64x1 cst_17
  have v163 : FVec F S64x1 .f32 := subf v162 v161
  have v164 : FVec F S64x1 .f32 := exp v163
  have cst_18 : F .f32 := Scalar.ofBits .f32 0x3F800000#32
  have v165 : FVec F S64x1 .f32 := broadcast S64x1 cst_18
  have v166 : FVec F S64x1 .f32 := addf v165 v164
  have cst_19 : F .f32 := Scalar.ofBits .f32 0x3F800000#32
  have v167 : FVec F S64x1 .f32 := broadcast S64x1 cst_19
  have v168 : FVec F S64x1 .f32 := divf v167 v166
  have v170 : FVec F S64x4096 .f32 := shapeCast S64x4096 v169 shapeCasts_S1x64x4096_S64x4096
  have v171 : FVec F S64x4096 .f32 := broadcastTo S64x4096 v168 broadcasts_S64x1_S64x4096
  have v172 : FVec F S64x4096 .f32 := mulf v170 v171
  have v175 : FVec F S1x64x4096 .f32 := shapeCast S1x64x4096 v172 shapeCasts_S64x4096_S1x64x4096
  v175

/-- The statistic from the lane totals `s` of the entries and `q` of their squares. -/
def fromLanes (s q : FVec F S64x128 .f32) : FVec F S64x1 .f32 :=
  have v128 : FVec F S64 .f32 := multiReduction .add [1] S64 s 0x00000000#32 reduces_S64x128_S64 (.inl rfl) rfl
  have v129 : FVec F S64x1 .f32 := shapeCast S64x1 v128 shapeCasts_S64_S64x1
  have cst_2 : F .f32 := Scalar.ofBits .f32 0x39800000#32
  have v130 : FVec F S64x1 .f32 := broadcast S64x1 cst_2
  have v131 : FVec F S64x1 .f32 := mulf v129 v130
  have v132 : FVec F S64 .f32 := multiReduction .add [1] S64 q 0x00000000#32 reduces_S64x128_S64 (.inl rfl) rfl
  have v133 : FVec F S64x1 .f32 := shapeCast S64x1 v132 shapeCasts_S64_S64x1
  have cst_4 : F .f32 := Scalar.ofBits .f32 0x39800000#32
  have v134 : FVec F S64x1 .f32 := broadcast S64x1 cst_4
  have v135 : FVec F S64x1 .f32 := mulf v133 v134
  have v136 : FVec F S64x1 .f32 := mulf v131 v131
  have v137 : FVec F S64x1 .f32 := subf v135 v136
  have cst_5 : F .f32 := Scalar.ofBits .f32 0x00000000#32
  have v138 : FVec F S64x1 .f32 := broadcast S64x1 cst_5
  have v139 : FVec F S64x1 .f32 := maximumf v137 v138
  have v140 : FVec F S64x1 .f32 := sqrt v139
  have v141 : FVec F S64x1 .f32 := addf v140 v131
  v141

/-- Lane `off / 128` of the image: 128 consecutive positions of every channel. -/
abbrev lane (x : FVec F S64x4096 .f32) (off : Nat) (h : S64x4096.Slices ![0, off] S64x128) : FVec F S64x128 .f32 :=
  extractStridedSlice S64x128 ![0, off] x h

/-- The last three lanes joined to running totals `s` and `q`. -/
def lastLanes (x : FVec F S64x4096 .f32) (s q : FVec F S64x128 .f32) : FVec F S64x128 .f32 × FVec F S64x128 .f32 :=
  have v116 : FVec F S64x128 .f32 := extractStridedSlice S64x128 ![0, 3712] x slices_S64x4096_o0_3712_S64x128
  have v117 : FVec F S64x128 .f32 := addf s v116
  have v118 : FVec F S64x128 .f32 := mulf v116 v116
  have v119 : FVec F S64x128 .f32 := addf q v118
  have v120 : FVec F S64x128 .f32 := extractStridedSlice S64x128 ![0, 3840] x slices_S64x4096_o0_3840_S64x128
  have v121 : FVec F S64x128 .f32 := addf v117 v120
  have v122 : FVec F S64x128 .f32 := mulf v120 v120
  have v123 : FVec F S64x128 .f32 := addf v119 v122
  have v124 : FVec F S64x128 .f32 := extractStridedSlice S64x128 ![0, 3968] x slices_S64x4096_o0_3968_S64x128
  have v125 : FVec F S64x128 .f32 := addf v121 v124
  have v126 : FVec F S64x128 .f32 := mulf v124 v124
  have v127 : FVec F S64x128 .f32 := addf v123 v126
  (v125, v127)

/-- The one-pass statistic of an image: lane totals of the entries and of their squares, then `fromLanes`. -/
def onePass (v0 : Vec F S1x64x4096 .f32) : FVec F S64x1 .f32 :=
  fromLanes (lastLanes (k0_pay2 v0) (k0_pay34 (k0_pay2 v0) (k0_pay17 v0)) (k0_pay35 (k0_pay2 v0) (k0_pay18 v0))).1
    (lastLanes (k0_pay2 v0) (k0_pay34 (k0_pay2 v0) (k0_pay17 v0)) (k0_pay35 (k0_pay2 v0) (k0_pay18 v0))).2

/-- The two-pass statistic of an image: the mean, then the mean of the squared deviations. -/
def twoPass (v0 : Vec F S1x64x4096 .f32) : FVec F S64x1 .f32 :=
  have v1 : FVec F S64x4096 .f32 := shapeCast S64x4096 v0 shapeCasts_S1x64x4096_S64x4096
  have v2 : FVec F S64 .f32 := multiReduction .add [1] S64 v1 0x00000000#32 Cert.ReferenceIdeal.Gen.reduces_S64x4096_S64 (.inl rfl) rfl
  have v3 : FVec F S64x1 .f32 := shapeCast S64x1 v2 shapeCasts_S64_S64x1
  have cst_2 : F .f32 := Scalar.ofBits .f32 0x39800000#32
  have v4 : FVec F S64x1 .f32 := broadcast S64x1 cst_2
  have v5 : FVec F S64x1 .f32 := mulf v3 v4
  have v6 : FVec F S64x4096 .f32 := broadcastTo S64x4096 v5 broadcasts_S64x1_S64x4096
  have v7 : FVec F S64x4096 .f32 := subf v1 v6
  have v8 : FVec F S64x4096 .f32 := mulf v7 v7
  have v9 : FVec F S64 .f32 := multiReduction .add [1] S64 v8 0x00000000#32 Cert.ReferenceIdeal.Gen.reduces_S64x4096_S64 (.inl rfl) rfl
  have v10 : FVec F S64x1 .f32 := shapeCast S64x1 v9 shapeCasts_S64_S64x1
  have cst_4 : F .f32 := Scalar.ofBits .f32 0x39800000#32
  have v11 : FVec F S64x1 .f32 := broadcast S64x1 cst_4
  have v12 : FVec F S64x1 .f32 := mulf v10 v11
  have v13 : FVec F S64x1 .f32 := sqrt v12
  have v14 : FVec F S64x1 .f32 := addf v13 v5
  v14

/-- The one-pass body's stored block is the gate of the one-pass statistic. -/
theorem kernel_block (v0 : Vec F S1x64x4096 .f32) (v142 : Vec F S64x4 .f32) (v148 : Vec F S1x4 .f32) (v153 : Vec F S64x4 .f32)
    (v159 : Vec F S64x1 .f32) :
    k0_pay1 (k0_pay36 (k0_pay2 v0) (k0_pay34 (k0_pay2 v0) (k0_pay17 v0)) (k0_pay35 (k0_pay2 v0) (k0_pay18 v0)) v142 v148 v153) v159 v0
      = gate (onePass v0) v0 v142 v148 v153 v159 := rfl

/-- The two-pass body's stored block is the gate of the two-pass statistic. -/
theorem reference_block (v0 : Vec F S1x64x4096 .f32) (v15 : Vec F S64x4 .f32) (v21 : Vec F S1x4 .f32) (v26 : Vec F S64x4 .f32)
    (v32 : Vec F S64x1 .f32) :
    Cert.ReferenceIdeal.Gen.k0_pay1 (Cert.ReferenceIdeal.Gen.k0_pay2 v0 v15 v21 v26 v32) (Cert.ReferenceIdeal.Gen.k0_pay3 (F := F)) v0
      = gate (twoPass v0) v0 v15 v21 v26 v32 := rfl

end Bodies

end Cert.Contrast

end
-- ==== Proof.ContrastValue.lean ====
/-
  The two contrast statistics agree on a real image.

  Fix a channel `c`.  Write `row n` for the channel's entry at position `n` (zero past 4095, so that it is a function on
  all naturals).  A lane slice at offset `off` reads `row (off + l)` in lane `l`, so the one-pass body's running totals
  are `∑ k < 32, row (128 k + l)` and the same sum of squares; the 128 lane totals then add up to `∑ n < 4096, row n`
  and `∑ n < 4096, row n · row n`.  Hence both statistics have the same mean `M = (∑ row) · 2⁻¹²`, the one-pass
  variance is `max ((∑ row²) · 2⁻¹² - M², 0)` and the two-pass one `(∑ (row - M)²) · 2⁻¹²`.  For real entries these are
  equal: the identity `E[(x - μ)²] = E[x²] - μ²` with `2⁻¹² · 4096 = 1`, and a mean of squares is not negative.
-/
import proofs.«151526_g2000604311919893_pallasbulk_952_2_alg».proof.Proof.Contrast

set_option maxRecDepth 16384

noncomputable section

namespace Cert.Contrast

open Idealize.ShloMosaic Idealize.SL.Sem Idealize.ShloMosaic.ValueIdx
open Cert.KernelIdeal Cert.KernelIdeal.Gen Cert.Moments Cert.Keepdims

/-- The scale both bodies multiply their totals by. -/
abbrev scale : EReal := Ideal.ofBits .f32 0x39800000#32

/-- It is `2⁻¹²`, the reciprocal of the 4096 positions. -/
theorem scale_eq : scale = (((1 : ℝ) / 4096 : ℝ) : EReal) := by
  simp [scale, Ideal.ofBits, Ideal.ieee, -EReal.coe_mul]; norm_num

/-- Channel `c` of the image by position, zero past the end. -/
def row (x : FVec Ideal S64x4096 .f32) (c : Fin 64) (n : ℕ) : EReal := if h : n < 4096 then x (ix2 c ⟨n, h⟩) else 0

theorem row_val (x : FVec Ideal S64x4096 .f32) (c : Fin 64) (n : Fin 4096) : row x c n.val = x (ix2 c n) := by
  unfold row; rw [dif_pos n.isLt]

/-- A lane slice at offset `off`, in lane `l`, reads position `off + l`. -/
theorem lane_apply (x : FVec Ideal S64x4096 .f32) (off : ℕ) (h : S64x4096.Slices ![0, off] S64x128) (c : Fin 64) (l : Fin 128) :
    extractStridedSlice S64x128 ![0, off] x h (ix2 c l) = row x c (off + l.val) := by
  have hb : off + l.val < 4096 := by
    obtain ⟨_, hs⟩ := h
    have h' : off + 128 ≤ 4096 := hs (1 : Fin 2)
    have hl := l.isLt
    omega
  unfold row; rw [dif_pos hb]
  refine extractStridedSlice_apply _ x h (ix2 c l) (ix2 c ⟨off + l.val, hb⟩) (fun a => ?_)
  match a with
  | ⟨0, _⟩ => exact (Nat.zero_add _).symm
  | ⟨1, _⟩ => rfl

/-- The index under result index `c` with coordinate `k` on the reduced (second) axis is `(c, k)`. -/
theorem lift_col {n : ℕ} (h : (⟨2, ![64, n]⟩ : Shape).Reduces [(1 : Fin 2)] ⟨1, ![64]⟩) (c : Fin 64)
    (k : Fin ((⟨2, ![64, n]⟩ : Shape).size (1 : Fin 2))) :
    h.lift (ix1 c) k = ix2 c (show Fin n from k) := by
  funext a; apply Fin.ext
  show h.liftVal (ix1 c) k.val a = _
  unfold Shape.Reduces.liftVal
  match a with
  | ⟨0, _⟩ => simp
  | ⟨1, _⟩ => simp

/-- A sum over the second axis of a [64, n] array, read at channel `c`, is the sum of the channel's `n` entries. -/
theorem rowSum_apply {n : ℕ} (src : FVec Ideal ⟨2, ![64, n]⟩ .f32)
    (h : (⟨2, ![64, n]⟩ : Shape).Reduces [(1 : Fin 2)] ⟨1, ![64]⟩) (hφ : FKind.Formats .f32)
    (hacc : (0x00000000#32 : BitVec 32) = 0x00000000#32) (c : Fin 64) :
    multiReduction .add [(1 : Fin 2)] ⟨1, ![64]⟩ src 0x00000000#32 h hφ hacc (ix1 c) = ∑ k : Fin n, src (ix2 c k) := by
  refine (Ideal.multiReduction_add_single src 0x00000000#32 h hφ hacc (ix1 c)).trans ?_
  exact Finset.sum_congr rfl (fun k _ => by rw [lift_col])

/-- A bit pattern read as a scalar at the ideal values is the extended real it denotes. -/
theorem scalar_ofBits (φ : FTy) (b : BitVec φ.bits) : Scalar.ofBits (F := Ideal) φ b = Ideal.ofBits φ b := rfl

/-! ## The lane totals -/

/-- In lane `l` of channel `c` the one-pass body's running total is the sum of the lane's 32 entries. -/
theorem laneSum_apply (v0 : Vec Ideal S1x64x4096 .f32) (c : Fin 64) (l : Fin 128) :
    (lastLanes (k0_pay2 v0) (k0_pay34 (k0_pay2 v0) (k0_pay17 v0)) (k0_pay35 (k0_pay2 v0) (k0_pay18 v0))).1 (ix2 c l)
      = ∑ k ∈ Finset.range 32, row (k0_pay2 v0) c (128 * k + l.val) := by
  simp only [lastLanes, k0_pay34, k0_pay17, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, addf_apply, lane_apply,
    Finset.sum_range_succ, Finset.sum_range_zero, zero_add, Nat.reduceMul]

/-- And its running total of squares is the sum of the squares of the lane's 32 entries. -/
theorem laneSquares_apply (v0 : Vec Ideal S1x64x4096 .f32) (c : Fin 64) (l : Fin 128) :
    (lastLanes (k0_pay2 v0) (k0_pay34 (k0_pay2 v0) (k0_pay17 v0)) (k0_pay35 (k0_pay2 v0) (k0_pay18 v0))).2 (ix2 c l)
      = ∑ k ∈ Finset.range 32, row (k0_pay2 v0) c (128 * k + l.val) * row (k0_pay2 v0) c (128 * k + l.val) := by
  simp only [lastLanes, k0_pay35, k0_pay18, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, addf_apply, mulf_apply, lane_apply,
    Finset.sum_range_succ, Finset.sum_range_zero, zero_add, Nat.reduceMul]

/-- Lane totals that are sums of a lane's 32 entries of `g` add up, over the 128 lanes, to the sum of `g` over the
    channel's 4096 positions. -/
theorem lanes_total (x : FVec Ideal S64x4096 .f32) (c : Fin 64) (s : FVec Ideal S64x128 .f32) (g : EReal → EReal)
    (hs : ∀ l : Fin 128, s (ix2 c l) = ∑ k ∈ Finset.range 32, g (row x c (128 * k + l.val))) :
    ∑ l : Fin 128, s (ix2 c l) = ∑ n : Fin 4096, g (x (ix2 c n)) := by
  rw [Finset.sum_congr rfl (fun l _ => hs l),
    Fin.sum_univ_eq_sum_range (fun l => ∑ k ∈ Finset.range 32, g (row x c (128 * k + l))) 128,
    sum_lanes (fun n => g (row x c n)), ← Fin.sum_univ_eq_sum_range (fun n => g (row x c n)) 4096]
  exact Finset.sum_congr rfl (fun n _ => by rw [row_val])

end Cert.Contrast

end
-- ==== Proof.ContrastEq.lean ====
/-
  The two contrast statistics at an index, and their equality on a real image.
-/
import proofs.«151526_g2000604311919893_pallasbulk_952_2_alg».proof.Proof.ContrastValue

set_option maxRecDepth 16384

noncomputable section

namespace Cert.Contrast

open Idealize.ShloMosaic Idealize.SL.Sem Idealize.ShloMosaic.ValueIdx
open Cert.KernelIdeal Cert.KernelIdeal.Gen Cert.Moments Cert.Keepdims

/-! ## The two statistics at an index -/

/-- From lane totals `s` and `q`: mean `(∑ s) · 2⁻¹²`, variance `max ((∑ q) · 2⁻¹² - mean², 0)`. -/
theorem fromLanes_apply (s q : FVec Ideal S64x128 .f32) (c : Fin 64) (u : Fin 1) :
    fromLanes s q (ix2 c u)
      = Ideal.sqrt (max ((∑ l : Fin 128, q (ix2 c l)) * scale
            - ((∑ l : Fin 128, s (ix2 c l)) * scale) * ((∑ l : Fin 128, s (ix2 c l)) * scale)) 0)
        + (∑ l : Fin 128, s (ix2 c l)) * scale := by
  unfold fromLanes
  simp only [addf_apply, sqrt, maximumf_apply, subf_apply, mulf_apply, broadcast_apply, shapeCast_a_a1_apply,
    Ideal.sqrt_def, scalar_ofBits, Ideal.ofBits_zero_f32]
  rw [rowSum_apply, rowSum_apply]

/-- Two passes: mean `M = (∑ x) · 2⁻¹²`, variance `(∑ (x - M)²) · 2⁻¹²`. -/
theorem twoPass_apply (v0 : Vec Ideal S1x64x4096 .f32) (c : Fin 64) (u : Fin 1) :
    twoPass v0 (ix2 c u)
      = Ideal.sqrt ((∑ n : Fin 4096, (k0_pay2 v0 (ix2 c n) - (∑ n : Fin 4096, k0_pay2 v0 (ix2 c n)) * scale)
            * (k0_pay2 v0 (ix2 c n) - (∑ n : Fin 4096, k0_pay2 v0 (ix2 c n)) * scale)) * scale)
        + (∑ n : Fin 4096, k0_pay2 v0 (ix2 c n)) * scale := by
  unfold twoPass
  simp only [addf_apply, sqrt, mulf_apply, broadcast_apply, shapeCast_a_a1_apply, Ideal.sqrt_def, scalar_ofBits]
  rw [rowSum_apply]
  simp only [subf_apply, mulf_apply, broadcast_apply, shapeCast_a_a1_apply, broadcastTo_a1_ab_apply]
  rw [rowSum_apply]
  rfl

/-! ## On a real image the two agree -/

/-- The image viewed as [64, 4096] reads the image at `(0, c, n)`. -/
theorem channel_entry (v0 : Vec Ideal S1x64x4096 .f32) (c : Fin 64) (n : Fin 4096) :
    k0_pay2 v0 (ix2 c n) = v0 (ix3 (0 : Fin 1) c n) := by
  unfold k0_pay2
  exact shapeCast_1ab_ab_apply v0 _ c n

/-- For an image of reals the one-pass and the two-pass statistics are the same vector. -/
theorem statistics_agree (v0 : Vec Ideal S1x64x4096 .f32) (hreal : ∀ i, ∃ r : ℝ, v0 i = (r : EReal)) :
    onePass v0 = twoPass v0 := by
  funext j
  obtain ⟨c, u, rfl⟩ : ∃ (c : Fin 64) (u : Fin 1), j = ix2 c u := ⟨j 0, j 1, eq_ix2 j⟩
  rw [twoPass_apply]
  unfold onePass
  rw [fromLanes_apply,
    lanes_total (k0_pay2 v0) c _ (fun a => a) (laneSum_apply v0 c),
    lanes_total (k0_pay2 v0) c _ (fun a => a * a) (laneSquares_apply v0 c)]
  -- the channel's entries are reals
  choose R hR using hreal
  have hx : ∀ n : Fin 4096, k0_pay2 v0 (ix2 c n) = ((R (ix3 (0 : Fin 1) c n) : ℝ) : EReal) := fun n => by
    rw [channel_entry]; exact hR _
  have hκ : (1 : ℝ) / 4096 * ((4096 : ℕ) : ℝ) = 1 := by norm_num
  have hκ0 : (0 : ℝ) ≤ 1 / 4096 := by norm_num
  simp only [hx, scale_eq]
  simp only [← EReal.coe_mul, coe_sum, ← EReal.coe_sub]
  rw [show (0 : EReal) = ((0 : ℝ) : EReal) from rfl, ← EReal.coe_strictMono.monotone.map_max,
    clamp_onePass (fun n => R (ix3 (0 : Fin 1) c n)) (1 / 4096) hκ hκ0]

end Cert.Contrast

end
-- ==== Proof.Assemble.lean ====
/-
  An array of 64 images, built image by image.

  The operand `X` has shape [64, 64, 4096]: 64 images, each of 64 channels by 4096 positions.  A per-image map `pay` takes an
  image, as a [1, 64, 4096] array, to an array of the same shape.  `perImage pay X` is the [64, 64, 4096] array whose image `n` is
  `pay` of image `n` of `X`.  Two facts are all that is asked of it: read back along image `n` it is `pay (image X n)`, and
  every index lies in the image its leading coordinate names.
-/
import Idealize.ShloMosaic.Lib.ValueIdx

namespace Cert.Assemble

open Idealize.ShloMosaic Idealize.ShloMosaic.ValueIdx

/-- The shape of the whole array and of one image. -/
abbrev Whole : Shape := ⟨3, ![64, 64, 4096]⟩
abbrev Image : Shape := ⟨3, ![1, 64, 4096]⟩

variable {α : Type}

/-- Image `n` of the array, as a [1, 64, 4096] array. -/
def image (X : Whole.Idx → α) (n : Fin 64) : Image.Idx → α := fun y => X (ix3 n (y 1) (y 2))

/-- The array whose image `n` is `pay` of image `n` of `X`. -/
def perImage (pay : (Image.Idx → α) → (Image.Idx → α)) (X : Whole.Idx → α) : Whole.Idx → α :=
  fun i => pay (image X (i 0)) (ix3 (0 : Fin 1) (i 1) (i 2))

/-- An index of an image is its two free coordinates after the unit one. -/
theorem image_idx (y : Image.Idx) : ix3 (0 : Fin 1) (y 1) (y 2) = y := by
  funext a
  match a with
  | ⟨0, _⟩ => exact Fin.ext (by have h : (y 0).val < 1 := (y 0).isLt; show 0 = (y 0).val; omega)
  | ⟨1, _⟩ => rfl
  | ⟨2, _⟩ => rfl

/-- Read along image `n`, the assembled array is `pay` of image `n` of the operand. -/
theorem perImage_image (pay : (Image.Idx → α) → (Image.Idx → α)) (X : Whole.Idx → α) (n : Fin 64) (y : Image.Idx) :
    perImage pay X (ix3 n (y 1) (y 2)) = pay (image X n) y := by
  exact congrArg (pay (image X n)) (image_idx y)

/-- Two per-image maps that agree on every image of the operand assemble the same array. -/
theorem perImage_congr (pay pay' : (Image.Idx → α) → (Image.Idx → α)) (X : Whole.Idx → α)
    (h : ∀ n, pay (image X n) = pay' (image X n)) : perImage pay X = perImage pay' X := by
  funext i
  exact congrFun (h (i 0)) _

end Cert.Assemble
-- ==== Proof.KernelArray.lean ====
/-
  What the program's result array holds after the run, as one function of the argument arrays.

  The region's grid has 64 points, one per image.  At point `t` the body is handed image `t` of the [64, 64, 4096] operand
  (window 0's block index is `(t, 0, 0)`, its block one whole image) and the four small operands whole (their block
  index is `(0, 0)` at every point); it stores one whole [1, 64, 4096] block, which is written back as image `t` of the
  result (window 5's block index is again `(t, 0, 0)`).  So the result array is the operand with the body's per-image
  map applied image by image: every index `(n, ch, p)` lies in point `n`'s block, and the 64 blocks cover the array.
  Around the region, @main only re-addresses: the operands are reshapes (and one transpose) of the arguments, and the
  result is a reshape of the region's array to [64, 64, 64, 64].
-/
import proofs.«151526_g2000604311919893_pallasbulk_952_2_alg».proof.Proof.Gen.KernelIdeal.Frame
import proofs.«151526_g2000604311919893_pallasbulk_952_2_alg».proof.Proof.Assemble
import Idealize.ShloMosaic.Lib.Pipeline.Value
import Idealize.ShloMosaic.Lib.StableHlo.Run

set_option maxRecDepth 16384

noncomputable section

namespace Cert.KernelIdeal.Arr

open Idealize.ShloMosaic Idealize.ShloMosaic.TcCoe Idealize.ShloMosaic.Tactic Idealize.SL.Sem Idealize.ShloMosaic.ValueIdx
open Cert.KernelIdeal Cert.KernelIdeal.Gen Cert.Assemble
open Idealize.ShloMosaic.Pipeline (Dat)

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl

/-! ## The operands as the region finds them -/

/-- The stacked images and the four small operands, at the region's entry. -/
abbrev opX (c : Dev nD) : Vec F S64x64x4096 .f32 := V m c main_v0
abbrev opW1 (c : Dev nD) : Vec F S64x4 .f32 := V m c main_v2
abbrev opB1 (c : Dev nD) : Vec F S1x4 .f32 := V m c main_v3
abbrev opW2 (c : Dev nD) : Vec F S64x4 .f32 := V m c main_v4
abbrev opB2 (c : Dev nD) : Vec F S64x1 .f32 := V m c main_v5

/-- The body's per-image map at those small operands. -/
def imageMap (c : Dev nD) : Vec F S1x64x4096 .f32 → Vec F S1x64x4096 .f32 :=
  fun x0 => out0_5 x0 (opW1 m c) (opB1 m c) (opW2 m c) (opB2 m c)

/-- Point `t` of the grid is image `t`. -/
def imageOf (t : Fin cfg0.N) : Fin 64 := ⟨t.val, lt_of_lt_of_eq t.isLt N_0⟩

/-- The index maps, decided over the grid: the image windows sit at block `(t, 0, 0)`, the small ones at `(0, 0)`. -/
theorem index_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The blocks the body is handed -/

/-- Window 0's block at point `t` is image `t` of the stacked operand. -/
theorem block_images (c : Dev nD) (t : Fin cfg0.N) : iblk m c 0 t = image (opX m c) (imageOf t) := by
  obtain ⟨e0, e1, e2, -⟩ := index_facts t
  funext y
  show V m c main_v0 (((cfg0.win 0).blk t).view.emb y) = V m c main_v0 (ix3 (imageOf t) (y 1) (y 2))
  refine congrArg (V m c main_v0) (funext fun a => Fin.ext ?_)
  match a with
  | ⟨0, _⟩ => show win0_0.index t (0 : Fin 3) * 1 + 1 * (y 0).val = t.val; have hy : (y 0).val < 1 := (y 0).isLt; omega
  | ⟨1, _⟩ => show win0_0.index t (1 : Fin 3) * 64 + 1 * (y 1).val = (y 1).val; omega
  | ⟨2, _⟩ => show win0_0.index t (2 : Fin 3) * 4096 + 1 * (y 2).val = (y 2).val; omega

/-- Each small window's block is its whole operand, at every point. -/
theorem block_w1 (c : Dev nD) (t : Fin cfg0.N) : iblk m c 1 t = opW1 m c := by
  obtain ⟨-, -, -, -, -, -, e0, e1, -⟩ := index_facts t
  funext y
  show V m c main_v2 (((cfg0.win 1).blk t).view.emb y) = V m c main_v2 y
  refine congrArg (V m c main_v2) (funext fun a => Fin.ext ?_)
  match a with
  | ⟨0, _⟩ => show win0_1.index t (0 : Fin 2) * 64 + 1 * (y 0).val = (y 0).val; omega
  | ⟨1, _⟩ => show win0_1.index t (1 : Fin 2) * 4 + 1 * (y 1).val = (y 1).val; omega
theorem block_b1 (c : Dev nD) (t : Fin cfg0.N) : iblk m c 2 t = opB1 m c := by
  obtain ⟨-, -, -, -, -, -, -, -, e0, e1, -⟩ := index_facts t
  funext y
  show V m c main_v3 (((cfg0.win 2).blk t).view.emb y) = V m c main_v3 y
  refine congrArg (V m c main_v3) (funext fun a => Fin.ext ?_)
  match a with
  | ⟨0, _⟩ => show win0_2.index t (0 : Fin 2) * 1 + 1 * (y 0).val = (y 0).val; omega
  | ⟨1, _⟩ => show win0_2.index t (1 : Fin 2) * 4 + 1 * (y 1).val = (y 1).val; omega
theorem block_w2 (c : Dev nD) (t : Fin cfg0.N) : iblk m c 3 t = opW2 m c := by
  obtain ⟨-, -, -, -, -, -, -, -, -, -, e0, e1, -⟩ := index_facts t
  funext y
  show V m c main_v4 (((cfg0.win 3).blk t).view.emb y) = V m c main_v4 y
  refine congrArg (V m c main_v4) (funext fun a => Fin.ext ?_)
  match a with
  | ⟨0, _⟩ => show win0_3.index t (0 : Fin 2) * 64 + 1 * (y 0).val = (y 0).val; omega
  | ⟨1, _⟩ => show win0_3.index t (1 : Fin 2) * 4 + 1 * (y 1).val = (y 1).val; omega
theorem block_b2 (c : Dev nD) (t : Fin cfg0.N) : iblk m c 4 t = opB2 m c := by
  obtain ⟨-, -, -, -, -, -, -, -, -, -, -, -, e0, e1⟩ := index_facts t
  funext y
  show V m c main_v5 (((cfg0.win 4).blk t).view.emb y) = V m c main_v5 y
  refine congrArg (V m c main_v5) (funext fun a => Fin.ext ?_)
  match a with
  | ⟨0, _⟩ => show win0_4.index t (0 : Fin 2) * 64 + 1 * (y 0).val = (y 0).val; omega
  | ⟨1, _⟩ => show win0_4.index t (1 : Fin 2) * 1 + 1 * (y 1).val = (y 1).val; omega

/-! ## From the blocks to the array -/

/-- The per-image map applied. -/
theorem imageMap_apply (c : Dev nD) (x0 : Vec F S1x64x4096 .f32) :
    imageMap m c x0 = out0_5 x0 (opW1 m c) (opB1 m c) (opW2 m c) (opB2 m c) := rfl

/-- A block that reads, at `j`, an array `G` at `(t, j 1, j 2)` is what point `t`'s window of the result reads of `G`. -/
theorem block_of_image (t : Fin cfg0.N) (B : Vec F S1x64x4096 .f32) (G : S64x64x4096.Idx → Elt F .f32)
    (hB : ∀ j : S1x64x4096.Idx, B j = G (ix3 (imageOf t) (j 1) (j 2))) :
    (cfg0.win 5).cut (grid0.coords t) B = ((cfg0.win 5).blk t).view.read (Elt F) G := by
  obtain ⟨-, -, -, e0, e1, e2, -⟩ := index_facts t
  funext j
  show B j = G (((cfg0.win 5).blk t).view.emb j)
  rw [hB]
  refine congrArg G (funext fun a => Fin.ext ?_)
  match a with
  | ⟨0, _⟩ => show t.val = win0_5.index t (0 : Fin 3) * 1 + 1 * (j 0).val; have hj : (j 0).val < 1 := (j 0).isLt; omega
  | ⟨1, _⟩ => show (j 1).val = win0_5.index t (1 : Fin 3) * 64 + 1 * (j 1).val; omega
  | ⟨2, _⟩ => show (j 2).val = win0_5.index t (2 : Fin 3) * 4096 + 1 * (j 2).val; omega

/-- What point `t` writes back is image `t` of the assembled array. -/
theorem flushed_image (c : Dev nD) (t : Fin cfg0.N) :
    (dats m 0 c).flushed 5 t = ((cfg0.win 5).blk t).view.read (Elt F) (perImage (imageMap m c) (opX m c)) := by
  show (cfg0.win 5).cut (grid0.coords t) ((dats m 0 c).after 5 t) = _
  rw [after0_5]
  refine block_of_image t _ _ (fun j => ?_)
  rw [block_images m c t, block_w1 m c t, block_b1 m c t, block_w2 m c t, block_b2 m c t, ← imageMap_apply]
  exact (perImage_image (imageMap m c) (opX m c) (imageOf t) j).symm

/-- An index of the array is in point `t`'s block iff each coordinate is in the block's range on its axis. -/
theorem mem_block (t : Fin cfg0.N) (i : S64x64x4096.Idx) :
    i ∈ ((cfg0.win 5).blk t).view.set ↔ ∀ a : Fin 3, win0_5.index t a * S1x64x4096.size a ≤ (i a).val
      ∧ (i a).val < win0_5.index t a * S1x64x4096.size a + S1x64x4096.size a := by
  show i ∈ ((View.whole main_v6).slice (win0_5.rect t)).set ↔ _
  rw [View.set_slice_whole, Rect.mem_set_unit]
  exact Iff.rfl

/-- Every index lies in the block of the point its leading coordinate names, and every point writes back. -/
theorem covered (i : S64x64x4096.Idx) :
    ∃ t : Fin cfg0.N, (cfg0.win 5).flush t = true ∧ i ∈ ((cfg0.win 5).blk t).view.set := by
  have h0 : (i 0).val < 64 := (i 0).isLt
  have h1 : (i 1).val < 64 := (i 1).isLt
  have h2 : (i 2).val < 4096 := (i 2).isLt
  refine ⟨⟨(i 0).val, lt_of_lt_of_eq h0 N_0.symm⟩, flush0_5 _, ?_⟩
  obtain ⟨-, -, -, e0, e1, e2, -⟩ := index_facts ⟨(i 0).val, lt_of_lt_of_eq h0 N_0.symm⟩
  have e0' : win0_5.index ⟨(i 0).val, lt_of_lt_of_eq h0 N_0.symm⟩ (0 : Fin 3) = (i 0).val := e0
  rw [mem_block]
  intro a
  match a with
  | ⟨0, _⟩ => show win0_5.index _ (0 : Fin 3) * 1 ≤ (i 0).val ∧ (i 0).val < win0_5.index _ (0 : Fin 3) * 1 + 1; rw [e0']; omega
  | ⟨1, _⟩ => show win0_5.index _ (1 : Fin 3) * 64 ≤ (i 1).val ∧ (i 1).val < win0_5.index _ (1 : Fin 3) * 64 + 64; rw [e1]; omega
  | ⟨2, _⟩ => show win0_5.index _ (2 : Fin 3) * 4096 ≤ (i 2).val ∧ (i 2).val < win0_5.index _ (2 : Fin 3) * 4096 + 4096; rw [e2]; omega

/-- The region's result array after the run: the stacked operand with the body's map applied image by image. -/
theorem region_array (c : Dev nD) : (dats m 0 c).arrAt 5 cfg0.N = perImage (imageMap m c) (opX m c) :=
  (dats m 0 c).arrAt_eq_of_cover 5 _ (fun t _ => flushed_image m c t) covered

/-! ## Around the region -/

/-- @main's result: the region's array given the argument's four axes back. -/
theorem result_eq (c : Dev nD) :
    Pipeline.afterTail₀ cfgs (dats m) 0 (V0 m) [hostOps1] c main_v7
      = shapeCast S64x64x64x64 (perImage (imageMap m c) (opX m c)) shapeCasts_S64x64x4096_S64x64x64x64 := by
  unfold Pipeline.afterTail₀
  show StableHlo.after hostOps1 _ (Proc.devRef .tc main_v7) = _
  after_results
  rw [(Pipeline.withArrays_arr spec0 launch0.win.arr_inj c _ _ 5).trans (region_array m c)]
  rfl

/-! ## The operands and the result, from the arguments -/

/-- @main's result as one function of its five arguments: the image array viewed as [64, 64, 4096], the body's map
    applied image by image with the small operands re-addressed, and the four axes given back. -/
def result (a0 : Vec F S64x64x64x64 .f32) (a1 : Vec F S4x64x1x1 .f32) (a2 : Vec F S4 .f32) (a3 : Vec F S64x4x1x1 .f32)
    (a4 : Vec F S64 .f32) : Vec F S64x64x64x64 .f32 :=
  shapeCast S64x64x64x64
    (perImage (fun x0 : Vec F S1x64x4096 .f32 => out0_5 x0
        (transpose S64x4 [1, 0] (shapeCast S4x64 a1 shapeCasts_S4x64x1x1_S4x64) transposes_S4x64_S64x4_1_0)
        (shapeCast S1x4 a2 shapeCasts_S4_S1x4) (shapeCast S64x4 a3 shapeCasts_S64x4x1x1_S64x4)
        (shapeCast S64x1 a4 shapeCasts_S64_S64x1))
      (shapeCast S64x64x4096 a0 shapeCasts_S64x64x64x64_S64x64x4096))
    shapeCasts_S64x64x4096_S64x64x64x64

theorem opX_eq (c : Dev nD) :
    opX m c = shapeCast S64x64x4096 (m ((c : Thread nD τ).loc main_arg0)) shapeCasts_S64x64x64x64_S64x64x4096 := by
  show StableHlo.after hostOps0 (fun b => m (c, b)) (Proc.devRef .tc main_v0) = _
  after_results
  rfl
theorem opW1_eq (c : Dev nD) :
    opW1 m c = transpose S64x4 [1, 0] (shapeCast S4x64 (m ((c : Thread nD τ).loc main_arg1)) shapeCasts_S4x64x1x1_S4x64)
      transposes_S4x64_S64x4_1_0 := by
  show StableHlo.after hostOps0 (fun b => m (c, b)) (Proc.devRef .tc main_v2) = _
  after_results
  rfl
theorem opB1_eq (c : Dev nD) : opB1 m c = shapeCast S1x4 (m ((c : Thread nD τ).loc main_arg2)) shapeCasts_S4_S1x4 := by
  show StableHlo.after hostOps0 (fun b => m (c, b)) (Proc.devRef .tc main_v3) = _
  after_results
  rfl
theorem opW2_eq (c : Dev nD) :
    opW2 m c = shapeCast S64x4 (m ((c : Thread nD τ).loc main_arg3)) shapeCasts_S64x4x1x1_S64x4 := by
  show StableHlo.after hostOps0 (fun b => m (c, b)) (Proc.devRef .tc main_v4) = _
  after_results
  rfl
theorem opB2_eq (c : Dev nD) : opB2 m c = shapeCast S64x1 (m ((c : Thread nD τ).loc main_arg4)) shapeCasts_S64_S64x1 := by
  show StableHlo.after hostOps0 (fun b => m (c, b)) (Proc.devRef .tc main_v5) = _
  after_results
  rfl

/-- @main's result is `result` of the arguments as launched. -/
theorem result_args (c : Dev nD) :
    Pipeline.afterTail₀ cfgs (dats m) 0 (V0 m) [hostOps1] c main_v7
      = result (m ((c : Thread nD τ).loc main_arg0)) (m ((c : Thread nD τ).loc main_arg1)) (m ((c : Thread nD τ).loc main_arg2))
          (m ((c : Thread nD τ).loc main_arg3)) (m ((c : Thread nD τ).loc main_arg4)) := by
  rw [result_eq]
  unfold imageMap result
  rw [opX_eq, opW1_eq, opB1_eq, opW2_eq, opB2_eq]

/-- The run, read: every weakly fair execution ends with the result at `result` of the arguments and the arguments
    as launched. -/
theorem run : θ_run defs (onTc (τ := τ) (main (F := F))) ⟨m, fun _ => 0, ρ⟩ (fun r => ∀ c : Dev nD,
      r.2.mem ((c.tc : Thread nD τ).loc main_v7)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v7 (Pipeline.mem_restRefs_of main_v7 (by decide) (by decide))).trans (result_args m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Arr

end
-- ==== Proof.ReferenceArray.lean ====
/-
  What the program's result array holds after the run, as one function of the argument arrays.

  The region's grid has 64 points, one per image.  At point `t` the body is handed image `t` of the [64, 64, 4096] operand
  (window 0's block index is `(t, 0, 0)`, its block one whole image) and the four small operands whole (their block
  index is `(0, 0)` at every point); it stores one whole [1, 64, 4096] block, which is written back as image `t` of the
  result (window 5's block index is again `(t, 0, 0)`).  So the result array is the operand with the body's per-image
  map applied image by image: every index `(n, ch, p)` lies in point `n`'s block, and the 64 blocks cover the array.
  Around the region, @main only re-addresses: the operands are reshapes (and one transpose) of the arguments, and the
  result is a reshape of the region's array to [64, 64, 64, 64].
-/
import proofs.«151526_g2000604311919893_pallasbulk_952_2_alg».proof.Proof.Gen.ReferenceIdeal.Frame
import proofs.«151526_g2000604311919893_pallasbulk_952_2_alg».proof.Proof.Assemble
import Idealize.ShloMosaic.Lib.Pipeline.Value
import Idealize.ShloMosaic.Lib.StableHlo.Run

set_option maxRecDepth 16384

noncomputable section

namespace Cert.ReferenceIdeal.Arr

open Idealize.ShloMosaic Idealize.ShloMosaic.TcCoe Idealize.ShloMosaic.Tactic Idealize.SL.Sem Idealize.ShloMosaic.ValueIdx
open Cert.ReferenceIdeal Cert.ReferenceIdeal.Gen Cert.Assemble
open Idealize.ShloMosaic.Pipeline (Dat)

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl

/-! ## The operands as the region finds them -/

/-- The stacked images and the four small operands, at the region's entry. -/
abbrev opX (c : Dev nD) : Vec F S64x64x4096 .f32 := V m c main_v0
abbrev opW1 (c : Dev nD) : Vec F S64x4 .f32 := V m c main_v2
abbrev opB1 (c : Dev nD) : Vec F S1x4 .f32 := V m c main_v3
abbrev opW2 (c : Dev nD) : Vec F S64x4 .f32 := V m c main_v4
abbrev opB2 (c : Dev nD) : Vec F S64x1 .f32 := V m c main_v5

/-- The body's per-image map at those small operands. -/
def imageMap (c : Dev nD) : Vec F S1x64x4096 .f32 → Vec F S1x64x4096 .f32 :=
  fun x0 => out0_5 x0 (opW1 m c) (opB1 m c) (opW2 m c) (opB2 m c)

/-- Point `t` of the grid is image `t`. -/
def imageOf (t : Fin cfg0.N) : Fin 64 := ⟨t.val, lt_of_lt_of_eq t.isLt N_0⟩

/-- The index maps, decided over the grid: the image windows sit at block `(t, 0, 0)`, the small ones at `(0, 0)`. -/
theorem index_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The blocks the body is handed -/

/-- Window 0's block at point `t` is image `t` of the stacked operand. -/
theorem block_images (c : Dev nD) (t : Fin cfg0.N) : iblk m c 0 t = image (opX m c) (imageOf t) := by
  obtain ⟨e0, e1, e2, -⟩ := index_facts t
  funext y
  show V m c main_v0 (((cfg0.win 0).blk t).view.emb y) = V m c main_v0 (ix3 (imageOf t) (y 1) (y 2))
  refine congrArg (V m c main_v0) (funext fun a => Fin.ext ?_)
  match a with
  | ⟨0, _⟩ => show win0_0.index t (0 : Fin 3) * 1 + 1 * (y 0).val = t.val; have hy : (y 0).val < 1 := (y 0).isLt; omega
  | ⟨1, _⟩ => show win0_0.index t (1 : Fin 3) * 64 + 1 * (y 1).val = (y 1).val; omega
  | ⟨2, _⟩ => show win0_0.index t (2 : Fin 3) * 4096 + 1 * (y 2).val = (y 2).val; omega

/-- Each small window's block is its whole operand, at every point. -/
theorem block_w1 (c : Dev nD) (t : Fin cfg0.N) : iblk m c 1 t = opW1 m c := by
  obtain ⟨-, -, -, -, -, -, e0, e1, -⟩ := index_facts t
  funext y
  show V m c main_v2 (((cfg0.win 1).blk t).view.emb y) = V m c main_v2 y
  refine congrArg (V m c main_v2) (funext fun a => Fin.ext ?_)
  match a with
  | ⟨0, _⟩ => show win0_1.index t (0 : Fin 2) * 64 + 1 * (y 0).val = (y 0).val; omega
  | ⟨1, _⟩ => show win0_1.index t (1 : Fin 2) * 4 + 1 * (y 1).val = (y 1).val; omega
theorem block_b1 (c : Dev nD) (t : Fin cfg0.N) : iblk m c 2 t = opB1 m c := by
  obtain ⟨-, -, -, -, -, -, -, -, e0, e1, -⟩ := index_facts t
  funext y
  show V m c main_v3 (((cfg0.win 2).blk t).view.emb y) = V m c main_v3 y
  refine congrArg (V m c main_v3) (funext fun a => Fin.ext ?_)
  match a with
  | ⟨0, _⟩ => show win0_2.index t (0 : Fin 2) * 1 + 1 * (y 0).val = (y 0).val; omega
  | ⟨1, _⟩ => show win0_2.index t (1 : Fin 2) * 4 + 1 * (y 1).val = (y 1).val; omega
theorem block_w2 (c : Dev nD) (t : Fin cfg0.N) : iblk m c 3 t = opW2 m c := by
  obtain ⟨-, -, -, -, -, -, -, -, -, -, e0, e1, -⟩ := index_facts t
  funext y
  show V m c main_v4 (((cfg0.win 3).blk t).view.emb y) = V m c main_v4 y
  refine congrArg (V m c main_v4) (funext fun a => Fin.ext ?_)
  match a with
  | ⟨0, _⟩ => show win0_3.index t (0 : Fin 2) * 64 + 1 * (y 0).val = (y 0).val; omega
  | ⟨1, _⟩ => show win0_3.index t (1 : Fin 2) * 4 + 1 * (y 1).val = (y 1).val; omega
theorem block_b2 (c : Dev nD) (t : Fin cfg0.N) : iblk m c 4 t = opB2 m c := by
  obtain ⟨-, -, -, -, -, -, -, -, -, -, -, -, e0, e1⟩ := index_facts t
  funext y
  show V m c main_v5 (((cfg0.win 4).blk t).view.emb y) = V m c main_v5 y
  refine congrArg (V m c main_v5) (funext fun a => Fin.ext ?_)
  match a with
  | ⟨0, _⟩ => show win0_4.index t (0 : Fin 2) * 64 + 1 * (y 0).val = (y 0).val; omega
  | ⟨1, _⟩ => show win0_4.index t (1 : Fin 2) * 1 + 1 * (y 1).val = (y 1).val; omega

/-! ## From the blocks to the array -/

/-- The per-image map applied. -/
theorem imageMap_apply (c : Dev nD) (x0 : Vec F S1x64x4096 .f32) :
    imageMap m c x0 = out0_5 x0 (opW1 m c) (opB1 m c) (opW2 m c) (opB2 m c) := rfl

/-- A block that reads, at `j`, an array `G` at `(t, j 1, j 2)` is what point `t`'s window of the result reads of `G`. -/
theorem block_of_image (t : Fin cfg0.N) (B : Vec F S1x64x4096 .f32) (G : S64x64x4096.Idx → Elt F .f32)
    (hB : ∀ j : S1x64x4096.Idx, B j = G (ix3 (imageOf t) (j 1) (j 2))) :
    (cfg0.win 5).cut (grid0.coords t) B = ((cfg0.win 5).blk t).view.read (Elt F) G := by
  obtain ⟨-, -, -, e0, e1, e2, -⟩ := index_facts t
  funext j
  show B j = G (((cfg0.win 5).blk t).view.emb j)
  rw [hB]
  refine congrArg G (funext fun a => Fin.ext ?_)
  match a with
  | ⟨0, _⟩ => show t.val = win0_5.index t (0 : Fin 3) * 1 + 1 * (j 0).val; have hj : (j 0).val < 1 := (j 0).isLt; omega
  | ⟨1, _⟩ => show (j 1).val = win0_5.index t (1 : Fin 3) * 64 + 1 * (j 1).val; omega
  | ⟨2, _⟩ => show (j 2).val = win0_5.index t (2 : Fin 3) * 4096 + 1 * (j 2).val; omega

/-- What point `t` writes back is image `t` of the assembled array. -/
theorem flushed_image (c : Dev nD) (t : Fin cfg0.N) :
    (dats m 0 c).flushed 5 t = ((cfg0.win 5).blk t).view.read (Elt F) (perImage (imageMap m c) (opX m c)) := by
  show (cfg0.win 5).cut (grid0.coords t) ((dats m 0 c).after 5 t) = _
  rw [after0_5]
  refine block_of_image t _ _ (fun j => ?_)
  rw [block_images m c t, block_w1 m c t, block_b1 m c t, block_w2 m c t, block_b2 m c t, ← imageMap_apply]
  exact (perImage_image (imageMap m c) (opX m c) (imageOf t) j).symm

/-- An index of the array is in point `t`'s block iff each coordinate is in the block's range on its axis. -/
theorem mem_block (t : Fin cfg0.N) (i : S64x64x4096.Idx) :
    i ∈ ((cfg0.win 5).blk t).view.set ↔ ∀ a : Fin 3, win0_5.index t a * S1x64x4096.size a ≤ (i a).val
      ∧ (i a).val < win0_5.index t a * S1x64x4096.size a + S1x64x4096.size a := by
  show i ∈ ((View.whole main_v6).slice (win0_5.rect t)).set ↔ _
  rw [View.set_slice_whole, Rect.mem_set_unit]
  exact Iff.rfl

/-- Every index lies in the block of the point its leading coordinate names, and every point writes back. -/
theorem covered (i : S64x64x4096.Idx) :
    ∃ t : Fin cfg0.N, (cfg0.win 5).flush t = true ∧ i ∈ ((cfg0.win 5).blk t).view.set := by
  have h0 : (i 0).val < 64 := (i 0).isLt
  have h1 : (i 1).val < 64 := (i 1).isLt
  have h2 : (i 2).val < 4096 := (i 2).isLt
  refine ⟨⟨(i 0).val, lt_of_lt_of_eq h0 N_0.symm⟩, flush0_5 _, ?_⟩
  obtain ⟨-, -, -, e0, e1, e2, -⟩ := index_facts ⟨(i 0).val, lt_of_lt_of_eq h0 N_0.symm⟩
  have e0' : win0_5.index ⟨(i 0).val, lt_of_lt_of_eq h0 N_0.symm⟩ (0 : Fin 3) = (i 0).val := e0
  rw [mem_block]
  intro a
  match a with
  | ⟨0, _⟩ => show win0_5.index _ (0 : Fin 3) * 1 ≤ (i 0).val ∧ (i 0).val < win0_5.index _ (0 : Fin 3) * 1 + 1; rw [e0']; omega
  | ⟨1, _⟩ => show win0_5.index _ (1 : Fin 3) * 64 ≤ (i 1).val ∧ (i 1).val < win0_5.index _ (1 : Fin 3) * 64 + 64; rw [e1]; omega
  | ⟨2, _⟩ => show win0_5.index _ (2 : Fin 3) * 4096 ≤ (i 2).val ∧ (i 2).val < win0_5.index _ (2 : Fin 3) * 4096 + 4096; rw [e2]; omega

/-- The region's result array after the run: the stacked operand with the body's map applied image by image. -/
theorem region_array (c : Dev nD) : (dats m 0 c).arrAt 5 cfg0.N = perImage (imageMap m c) (opX m c) :=
  (dats m 0 c).arrAt_eq_of_cover 5 _ (fun t _ => flushed_image m c t) covered

/-! ## Around the region -/

/-- @main's result: the region's array given the argument's four axes back. -/
theorem result_eq (c : Dev nD) :
    Pipeline.afterTail₀ cfgs (dats m) 0 (V0 m) [hostOps1] c main_v7
      = shapeCast S64x64x64x64 (perImage (imageMap m c) (opX m c)) shapeCasts_S64x64x4096_S64x64x64x64 := by
  unfold Pipeline.afterTail₀
  show StableHlo.after hostOps1 _ (Proc.devRef .tc main_v7) = _
  after_results
  rw [(Pipeline.withArrays_arr spec0 launch0.win.arr_inj c _ _ 5).trans (region_array m c)]
  rfl

/-! ## The operands and the result, from the arguments -/

/-- @main's result as one function of its five arguments: the image array viewed as [64, 64, 4096], the body's map
    applied image by image with the small operands re-addressed, and the four axes given back. -/
def result (a0 : Vec F S64x64x64x64 .f32) (a1 : Vec F S4x64x1x1 .f32) (a2 : Vec F S4 .f32) (a3 : Vec F S64x4x1x1 .f32)
    (a4 : Vec F S64 .f32) : Vec F S64x64x64x64 .f32 :=
  shapeCast S64x64x64x64
    (perImage (fun x0 : Vec F S1x64x4096 .f32 => out0_5 x0
        (transpose S64x4 [1, 0] (shapeCast S4x64 a1 shapeCasts_S4x64x1x1_S4x64) transposes_S4x64_S64x4_1_0)
        (shapeCast S1x4 a2 shapeCasts_S4_S1x4) (shapeCast S64x4 a3 shapeCasts_S64x4x1x1_S64x4)
        (shapeCast S64x1 a4 shapeCasts_S64_S64x1))
      (shapeCast S64x64x4096 a0 shapeCasts_S64x64x64x64_S64x64x4096))
    shapeCasts_S64x64x4096_S64x64x64x64

theorem opX_eq (c : Dev nD) :
    opX m c = shapeCast S64x64x4096 (m ((c : Thread nD τ).loc main_arg0)) shapeCasts_S64x64x64x64_S64x64x4096 := by
  show StableHlo.after hostOps0 (fun b => m (c, b)) (Proc.devRef .tc main_v0) = _
  after_results
  rfl
theorem opW1_eq (c : Dev nD) :
    opW1 m c = transpose S64x4 [1, 0] (shapeCast S4x64 (m ((c : Thread nD τ).loc main_arg1)) shapeCasts_S4x64x1x1_S4x64)
      transposes_S4x64_S64x4_1_0 := by
  show StableHlo.after hostOps0 (fun b => m (c, b)) (Proc.devRef .tc main_v2) = _
  after_results
  rfl
theorem opB1_eq (c : Dev nD) : opB1 m c = shapeCast S1x4 (m ((c : Thread nD τ).loc main_arg2)) shapeCasts_S4_S1x4 := by
  show StableHlo.after hostOps0 (fun b => m (c, b)) (Proc.devRef .tc main_v3) = _
  after_results
  rfl
theorem opW2_eq (c : Dev nD) :
    opW2 m c = shapeCast S64x4 (m ((c : Thread nD τ).loc main_arg3)) shapeCasts_S64x4x1x1_S64x4 := by
  show StableHlo.after hostOps0 (fun b => m (c, b)) (Proc.devRef .tc main_v4) = _
  after_results
  rfl
theorem opB2_eq (c : Dev nD) : opB2 m c = shapeCast S64x1 (m ((c : Thread nD τ).loc main_arg4)) shapeCasts_S64_S64x1 := by
  show StableHlo.after hostOps0 (fun b => m (c, b)) (Proc.devRef .tc main_v5) = _
  after_results
  rfl

/-- @main's result is `result` of the arguments as launched. -/
theorem result_args (c : Dev nD) :
    Pipeline.afterTail₀ cfgs (dats m) 0 (V0 m) [hostOps1] c main_v7
      = result (m ((c : Thread nD τ).loc main_arg0)) (m ((c : Thread nD τ).loc main_arg1)) (m ((c : Thread nD τ).loc main_arg2))
          (m ((c : Thread nD τ).loc main_arg3)) (m ((c : Thread nD τ).loc main_arg4)) := by
  rw [result_eq]
  unfold imageMap result
  rw [opX_eq, opW1_eq, opB1_eq, opW2_eq, opB2_eq]

/-- The run, read: every weakly fair execution ends with the result at `result` of the arguments and the arguments
    as launched. -/
theorem run : θ_run defs (onTc (τ := τ) (main (F := F))) ⟨m, fun _ => 0, ρ⟩ (fun r => ∀ c : Dev nD,
      r.2.mem ((c.tc : Thread nD τ).loc main_v7)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v7 (Pipeline.mem_restRefs_of main_v7 (by decide) (by decide))).trans (result_args m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Arr

end
-- ==== Proof.Agree.lean ====
/-
  The two programs compute one function of the arguments, where the image array is real.

  Each body stores one whole block: the gate of its contrast statistic.  On a real image the statistics agree, so the
  stored blocks agree; the two results are then the same array assembled image by image, since around the region both
  programs re-address their arguments in the same way.
-/
import proofs.«151526_g2000604311919893_pallasbulk_952_2_alg».proof.Proof.ContrastEq
import proofs.«151526_g2000604311919893_pallasbulk_952_2_alg».proof.Proof.KernelArray
import proofs.«151526_g2000604311919893_pallasbulk_952_2_alg».proof.Proof.ReferenceArray

set_option maxRecDepth 16384

noncomputable section

namespace Cert.Agree

open Idealize.ShloMosaic Idealize.SL.Sem Idealize.ShloMosaic.ValueIdx
open Cert.KernelIdeal Cert.Assemble Cert.Contrast

theorem zero3 : (![0, 0, 0] : Fin 3 → Nat) = fun _ => 0 := funext fun a => by fin_cases a <;> rfl
theorem zero2 : (![0, 0] : Fin 2 → Nat) = fun _ => 0 := funext fun a => by fin_cases a <;> rfl

/-- On a real image the two bodies leave the same block in the result window's buffer. -/
theorem block_agree (x0 : Vec Ideal S1x64x4096 .f32) (x1 : Vec Ideal S64x4 .f32) (x2 : Vec Ideal S1x4 .f32)
    (x3 : Vec Ideal S64x4 .f32) (x4 : Vec Ideal S64x1 .f32) (hreal : ∀ i, ∃ r : ℝ, x0 i = (r : EReal)) :
    Cert.KernelIdeal.Gen.out0_5 x0 x1 x2 x3 x4 = Cert.ReferenceIdeal.Gen.out0_5 x0 x1 x2 x3 x4 := by
  unfold Cert.KernelIdeal.Gen.out0_5 Cert.ReferenceIdeal.Gen.out0_5
  rw [View.canon_unit_zero zero3, View.canon_unit_zero zero3]
  simp only [View.ld_unit_zero (S := S1x64x4096) zero3, View.ld_unit_zero (S := S64x4) zero2,
    View.ld_unit_zero (S := S1x4) zero2, View.ld_unit_zero (S := S64x1) zero2]
  rw [kernel_block, reference_block, statistics_agree x0 hreal]

/-- So the two programs' results are one function of the arguments, where the image array is real. -/
theorem results_agree (a0 : Vec Ideal S64x64x64x64 .f32) (a1 : Vec Ideal S4x64x1x1 .f32) (a2 : Vec Ideal S4 .f32)
    (a3 : Vec Ideal S64x4x1x1 .f32) (a4 : Vec Ideal S64 .f32) (hreal : ∀ i, ∃ r : ℝ, a0 i = (r : EReal)) :
    Cert.ReferenceIdeal.Arr.result (F := Ideal) a0 a1 a2 a3 a4 = Cert.KernelIdeal.Arr.result (F := Ideal) a0 a1 a2 a3 a4 := by
  unfold Cert.ReferenceIdeal.Arr.result Cert.KernelIdeal.Arr.result
  refine congrArg (fun A : Vec Ideal S64x64x4096 .f32 => shapeCast S64x64x64x64 A Cert.KernelIdeal.Gen.shapeCasts_S64x64x4096_S64x64x64x64) ?_
  refine perImage_congr _ _ _ (fun n => ?_)
  exact (block_agree _ _ _ _ _ (fun y => hreal _)).symm

end Cert.Agree

end
-- ==== Proof.Finite.lean ====
/-
  The precondition makes every entry of the image array a real number.

  The printed precondition is a conjunction of five tests, one per argument, each "every entry's absolute value is
  below +∞".  The first conjunct, read at an index, says `max (x, -x) < ⊤` for that entry of the image array; an extended
  real with that property is neither infinity, so it is a real.
-/
import proofs.«151526_g2000604311919893_pallasbulk_952_2_alg».proof.Pre_finite_inputs
import proofs.«151526_g2000604311919893_pallasbulk_952_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Cert.Pre_finite_inputs

/-- An extended real whose absolute value is below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

/-- The pattern of `+∞` denotes the top of the extended reals. -/
theorem inf_eq_top : Ideal.ofBits .f32 0x7F800000#32 = (⊤ : EReal) := by simp [Ideal.ofBits, Ideal.ieee]

instance : Subsingleton S_.Idx := ⟨fun a b => funext fun d => d.elim0⟩

/-- Under the precondition every entry of the first argument is a real. -/
theorem image_entries_real (a0 : FVec Ideal S64x64x64x64 .f32) (a1 : FVec Ideal S4x64x1x1 .f32) (a2 : FVec Ideal S4 .f32)
    (a3 : FVec Ideal S64x4x1x1 .f32) (a4 : FVec Ideal S64 .f32)
    (h : Cert.Pre_finite_inputs.fn (F := Ideal) a0 a1 a2 a3 a4 = fun _ => 1#1) (i : S64x64x64x64.Idx) :
    ∃ r : ℝ, a0 i = (r : EReal) := by
  have h0 := congrFun h ValueIdx.ix0
  dsimp only [Cert.Pre_finite_inputs.fn, Cert.Pre_finite_inputs.fn_part1] at h0
  have h1 := (IntOp.andi_eq_one.mp h0).1
  have h2 := (IntOp.andi_eq_one.mp h1).1
  have h3 := (IntOp.andi_eq_one.mp h2).1
  have h4 := (IntOp.andi_eq_one.mp h3).1
  have h5 := Host.reduce_andi_all _ _ _ _ _ h4 i
  have h6 : Ideal.cmp .olt (max (a0 i) (-(a0 i))) (Ideal.ofBits .f32 0x7F800000#32) = 1#1 := h5
  rw [inf_eq_top] at h6
  refine real_of_abs_lt_top (a0 i) ?_
  by_contra hn
  simp [Ideal.cmp, hn] at h6

end Cert.Finite

end
-- ==== Proof.lean ====
/-
  The certificate: a contrast-aware channel attention layer, one image per grid point.

  For each of 64 images and each of its 64 channels the layer forms the channel's contrast statistic, square root of
  the variance plus the mean over the 4096 positions, feeds the 64 statistics through a 64 → 4 → 64 bottleneck (relu,
  then the logistic `1 / (1 + exp(-z))`), and multiplies each channel by its gate value.  The kernel gets mean and
  variance in one pass (lane-wise totals of the entries and of their squares, then `max (E[x²] - mean², 0)`); the
  reference in two (the mean, then the mean of the squared deviations).  Everything after the statistic is the same
  sequence of operations in both.

  The three frames are the generated class-A frames.  Nothing was rewritten by the ideal pass, so the idealization
  claim is trivial.  For the algebraic claim both runs end with @main's result at one function of the arguments: each
  program's result is its body's per-image map applied image by image (the 64 blocks written back cover the array)
  between reshapes that both programs share, and on a real image the two per-image maps agree, because the two
  statistics do: `E[(x - μ)²] = E[x²] - μ²` when the scale `2⁻¹²` is exactly the reciprocal of the 4096 positions, and the
  clamp at zero does nothing to a mean of squares.  The precondition is where "real" comes from: it says every entry of
  the image array has absolute value below `+∞`.
-/
import proofs.«151526_g2000604311919893_pallasbulk_952_2_alg».proof.Defs
import proofs.«151526_g2000604311919893_pallasbulk_952_2_alg».proof.Proof.Gen.Kernel
import proofs.«151526_g2000604311919893_pallasbulk_952_2_alg».proof.Proof.Gen.Kernel.Skeleton
import proofs.«151526_g2000604311919893_pallasbulk_952_2_alg».proof.Proof.Gen.Kernel.Launch
import proofs.«151526_g2000604311919893_pallasbulk_952_2_alg».proof.Proof.Gen.Kernel.Points
import proofs.«151526_g2000604311919893_pallasbulk_952_2_alg».proof.Proof.Gen.Kernel.Frame
import proofs.«151526_g2000604311919893_pallasbulk_952_2_alg».proof.Proof.Gen.KernelIdeal
import proofs.«151526_g2000604311919893_pallasbulk_952_2_alg».proof.Proof.Gen.KernelIdeal.Skeleton
import proofs.«151526_g2000604311919893_pallasbulk_952_2_alg».proof.Proof.Gen.KernelIdeal.Launch
import proofs.«151526_g2000604311919893_pallasbulk_952_2_alg».proof.Proof.Gen.KernelIdeal.Points
import proofs.«151526_g2000604311919893_pallasbulk_952_2_alg».proof.Proof.Gen.KernelIdeal.Frame
import proofs.«151526_g2000604311919893_pallasbulk_952_2_alg».proof.Proof.Gen.ReferenceIdeal
import proofs.«151526_g2000604311919893_pallasbulk_952_2_alg».proof.Proof.Gen.ReferenceIdeal.Skeleton
import proofs.«151526_g2000604311919893_pallasbulk_952_2_alg».proof.Proof.Gen.ReferenceIdeal.Launch
import proofs.«151526_g2000604311919893_pallasbulk_952_2_alg».proof.Proof.Gen.ReferenceIdeal.Points
import proofs.«151526_g2000604311919893_pallasbulk_952_2_alg».proof.Proof.Gen.ReferenceIdeal.Frame
import proofs.«151526_g2000604311919893_pallasbulk_952_2_alg».proof.Proof.Gen.Pre_finite_inputs
import proofs.«151526_g2000604311919893_pallasbulk_952_2_alg».proof.Proof.Agree
import proofs.«151526_g2000604311919893_pallasbulk_952_2_alg».proof.Proof.Finite
import Idealize.ShloMosaic.Adequacy
import Idealize.ShloMosaic.Init

noncomputable section

namespace Cert.Proof

open Idealize.ShloMosaic Idealize.SL.Sem Cert.Kernel

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference, itself one fused kernel. -/
theorem frame_referenceIdeal : Cert.frame_ReferenceIdeal := fun m ρ _ => Cert.ReferenceIdeal.Gen.frame m ρ

/-- Both idealized programs end with @main's result at the kernel's function of the arguments: the kernel by its own
    run; the reference by its run, the arguments' agreement, and the agreement of the two functions where the image
    array is real, which the precondition gives. -/
theorem algebraic : Cert.algebraic_KernelIdeal_ReferenceIdeal := by
  intro m ρ m' ρ' hpre hagree
  refine ⟨fun c => Cert.KernelIdeal.Arr.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Arr.run (F := Ideal) m ρ, ?_⟩
  refine (θ_run Cert.ReferenceIdeal.defs _ _).mono (fun _ h c => ⟨(h c).1.trans ?_, (h c).2⟩)
    (Cert.ReferenceIdeal.Arr.run (F := Ideal) m' ρ')
  rw [(hagree c).1, (hagree c).2.1, (hagree c).2.2.1, (hagree c).2.2.2.1, (hagree c).2.2.2.2]
  exact Cert.Agree.results_agree _ _ _ _ _ (fun i => Cert.Finite.image_entries_real _ _ _ _ _ (hpre c) i)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
